-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S64x512x768 .f32) (main_arg1 : FVec F S768x768 .f32) (main_arg2 : FVec F S768 .f32) (main_arg3 : IVec S64x512 32) (main_arg4 : IVec S64x16x2 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S64x1x768 : Shape := ⟨3, ![64, 1, 768]⟩
abbrev S1024x768 : Shape := ⟨2, ![1024, 768]⟩
abbrev S1x512x768 : Shape := ⟨3, ![1, 512, 768]⟩
abbrev S1x16x2 : Shape := ⟨3, ![1, 16, 2]⟩
abbrev S1x1x768 : Shape := ⟨3, ![1, 1, 768]⟩
abbrev S16x768 : Shape := ⟨2, ![16, 768]⟩
abbrev S512x768 : Shape := ⟨2, ![512, 768]⟩
abbrev S1x768 : Shape := ⟨2, ![1, 768]⟩
abbrev S16x2 : Shape := ⟨2, ![16, 2]⟩
abbrev S16x1 : Shape := ⟨2, ![16, 1]⟩
abbrev S16 : Shape := ⟨1, ![16]⟩
abbrev S16x512 : Shape := ⟨2, ![16, 512]⟩
abbrev S64x768 : Shape := ⟨2, ![64, 768]⟩
abbrev S_ : Shape := ⟨0, ![]⟩
abbrev S64x16 : Shape := ⟨2, ![64, 16]⟩

abbrev nBuf : Space → Nat
  | .hbm => 10
  | .vmem => 10
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768, .f32⟩
  | .hbm, ⟨3, _⟩ => ⟨S64x512, .i32⟩
  | .hbm, ⟨4, _⟩ => ⟨S64x16x2, .i32⟩
  | .hbm, ⟨5, _⟩ => ⟨S64x1x768, .f32⟩
  | .hbm, ⟨6, _⟩ => ⟨S1024x768, .f32⟩
  | .hbm, ⟨7, _⟩ => ⟨S64x768, .f32⟩
  | .hbm, ⟨8, _⟩ => ⟨S_, .f32⟩
  | .hbm, ⟨9, _⟩ => ⟨S64x16, .f32⟩
  | .local _ .vmem, ⟨0, _⟩ => ⟨S1x512x768, .f32⟩
  | .local _ .vmem, ⟨1, _⟩ => ⟨S1x512x768, .f32⟩
  | .local _ .vmem, ⟨2, _⟩ => ⟨S768x768, .f32⟩
  | .local _ .vmem, ⟨3, _⟩ => ⟨S768, .f32⟩
  | .local _ .vmem, ⟨4, _⟩ => ⟨S1x16x2, .i32⟩
  | .local _ .vmem, ⟨5, _⟩ => ⟨S1x16x2, .i32⟩
  | .local _ .vmem, ⟨6, _⟩ => ⟨S1x1x768, .f32⟩
  | .local _ .vmem, ⟨7, _⟩ => ⟨S1x1x768, .f32⟩
  | .local _ .vmem, ⟨8, _⟩ => ⟨S16x768, .f32⟩
  | .local _ .vmem, ⟨9, _⟩ => ⟨S16x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x768_S768x768_0_0 : ∀ a, (![0, 0] : Fin 2 → Nat) a + S768x768.size a ≤ S768x768.size a
  h_S768x768 : 0 < S768x768.numel
  bitsLt_bf16_f32 : FTy.bits .bf16 < FTy.bits .f32
  transposes_S768x768_p1_0_S768x768 : S768x768.Transposes [1, 0] S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  slices_S512x768_o0_0_S1x768 : S512x768.Slices ![0, 0] S1x768
  shapeCasts_S1x768_S768 : S1x768.ShapeCasts S768
  shapeCasts_S768_S1x1x768 : S768.ShapeCasts S1x1x768
  inb_S1x1x768_S1x1x768_0_0_0 : ∀ a, (![0, 0, 0] : Fin 3 → Nat) a + S1x1x768.size a ≤ S1x1x768.size a
  h_S1x1x768 : 0 < S1x1x768.numel
  inb_S1x16x2_S1x16x2_0_0_0 : ∀ a, (![0, 0, 0] : Fin 3 → Nat) a + S1x16x2.size a ≤ S1x16x2.size a
  h_S1x16x2 : 0 < S1x16x2.numel
  shapeCasts_S1x16x2_S16x2 : S1x16x2.ShapeCasts S16x2
  slices_S16x2_o0_0_S16x1 : S16x2.Slices ![0, 0] S16x1
  shapeCasts_S16x1_S16 : S16x1.ShapeCasts S16
  shapeCasts_S16_S16x1 : S16.ShapeCasts S16x1
  slices_S16x2_o0_1_S16x1 : S16x2.Slices ![0, 1] S16x1
  iota_S16x512_d1_w32 : S16x512.Iotas .tc 32 [1]
  broadcasts_S16x1_S16x512 : S16x1.Broadcasts S16x512
  natLt_1_32 : 1 < 32
  broadcasts_S16x1_S16x768 : S16x1.Broadcasts S16x768
  inb_S16x768_S16x768_0_0 : ∀ a, (![0, 0] : Fin 2 → Nat) a + S16x768.size a ≤ S16x768.size a
  h_S16x768 : 0 < S16x768.numel
  shapeCasts_S64x1x768_S64x768 : S64x1x768.ShapeCasts S64x768
  bcast_S_S64x16 : S_.BroadcastsInDim S64x16 (![] : Fin 0 → Fin S64x16.rank)
  dot_S512x768_S768x768_S512x768_1_0_0_1_n_n_wf : DotDims.WF S512x768 S768x768 S512x768 [1] [0] [0] [1] [] []
  dot_S16x512_S512x768_S16x768_1_0_0_1_n_n_wf : DotDims.WF S16x512 S512x768 S16x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2.size a ≤ S64x16x2.size a
  hwx0_3 : ∀ i : grid0.Coords, EltTy.bits .i32 = 32 ∨ (Rect.block (s := S64x16x2) S1x16x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S64x1x768.size a
  hwx0_4 : ∀ i : grid0.Coords, EltTy.bits .f32 = 32 ∨ (Rect.block (s := S64x1x768) S1x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x768.size a ≤ S1024x768.size a
  hwx0_5 : ∀ i : grid0.Coords, EltTy.bits .f32 = 32 ∨ (Rect.block (s := S1024x768) S16x768.size (cc0_transform_5 i) (hinb0_5 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S16x512_S512x768_S16x768_1_0_0_1_n_n : DotDims S16x512 S512x768 S16x768 where
  lhsContracting := [1]
  rhsContracting := [0]
  lhsNonContracting := [0]
  rhsNonContracting := [1]
  lhsBatch := []
  rhsBatch := []
  wf := dot_S16x512_S512x768_S16x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x16x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S1x1x768 : Shape := ⟨3, ![1, 1, 768]⟩
abbrev S64x1x768 : Shape := ⟨3, ![64, 1, 768]⟩
abbrev S64x768 : Shape := ⟨2, ![64, 768]⟩
abbrev S512 : Shape := ⟨1, ![512]⟩
abbrev S64x16x1 : Shape := ⟨3, ![64, 16, 1]⟩
abbrev S64x16 : Shape := ⟨2, ![64, 16]⟩
abbrev S1x1x512 : Shape := ⟨3, ![1, 1, 512]⟩
abbrev S64x16x512 : Shape := ⟨3, ![64, 16, 512]⟩
abbrev S64x16x768 : Shape := ⟨3, ![64, 16, 768]⟩
abbrev S1024x768 : Shape := ⟨2, ![1024, 768]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768, .f32⟩
  | .hbm, ⟨3, _⟩ => ⟨S64x512, .i32⟩
  | .hbm, ⟨4, _⟩ => ⟨S64x16x2, .i32⟩
  | .hbm, ⟨5, _⟩ => ⟨S64x512x768, .f32⟩
  | .hbm, ⟨6, _⟩ => ⟨S1x1x768, .f32⟩
  | .hbm, ⟨7, _⟩ => ⟨S64x512x768, .f32⟩
  | .hbm, ⟨8, _⟩ => ⟨S64x512x768, .f32⟩
  | .hbm, ⟨9, _⟩ => ⟨S64x512x768, .f32⟩
  | .hbm, ⟨10, _⟩ => ⟨S64x1x768, .f32⟩
  | .hbm, ⟨11, _⟩ => ⟨S64x768, .f32⟩
  | .hbm, ⟨12, _⟩ => ⟨S512, .i32⟩
  | .hbm, ⟨13, _⟩ => ⟨S64x16x1, .i32⟩
  | .hbm, ⟨14, _⟩ => ⟨S64x16, .i32⟩
  | .hbm, ⟨15, _⟩ => ⟨S64x16x1, .i32⟩
  | .hbm, ⟨16, _⟩ => ⟨S64x16x1, .i32⟩
  | .hbm, ⟨17, _⟩ => ⟨S64x16, .i32⟩
  | .hbm, ⟨18, _⟩ => ⟨S64x16x1, .i32⟩
  | .hbm, ⟨19, _⟩ => ⟨S1x1x512, .i32⟩
  | .hbm, ⟨20, _⟩ => ⟨S64x16x512, .i32⟩
  | .hbm, ⟨21, _⟩ => ⟨S64x16x512, .i32⟩
  | .hbm, ⟨22, _⟩ => ⟨S64x16x512, .i1⟩
  | .hbm, ⟨23, _⟩ => ⟨S1x1x512, .i32⟩
  | .hbm, ⟨24, _⟩ => ⟨S64x16x512, .i32⟩
  | .hbm, ⟨25, _⟩ => ⟨S64x16x512, .i32⟩
  | .hbm, ⟨26, _⟩ => ⟨S64x16x512, .i1⟩
  | .hbm, ⟨27, _⟩ => ⟨S64x16x512, .i1⟩
  | .hbm, ⟨28, _⟩ => ⟨S64x16x512, .f32⟩
  | .hbm, ⟨29, _⟩ => ⟨S64x16x768, .f32⟩
  | .hbm, ⟨30, _⟩ => ⟨S64x16x1, .i32⟩
  | .hbm, ⟨31, _⟩ => ⟨S64x16, .i32⟩
  | .hbm, ⟨32, _⟩ => ⟨S64x16x1, .i32⟩
  | .hbm, ⟨33, _⟩ => ⟨S64x16, .i32⟩
  | .hbm, ⟨34, _⟩ => ⟨S64x16, .i32⟩
  | .hbm, ⟨35, _⟩ => ⟨S64x16, .f32⟩
  | .hbm, ⟨36, _⟩ => ⟨S64x16x1, .f32⟩
  | .hbm, ⟨37, _⟩ => ⟨S64x16x768, .f32⟩
  | .hbm, ⟨38, _⟩ => ⟨S64x16x768, .f32⟩
  | .hbm, ⟨39, _⟩ => ⟨S1024x768, .f32⟩
  | .hbm, ⟨40, _⟩ => ⟨S_, .f32⟩
  | .hbm, ⟨41, _⟩ => ⟨S64x16, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_v35 : Ref sig .tc := ⟨.hbm, 41, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  slices_S64x512x768_S64x1x768_0_0_0 : S64x512x768.Slices ![0, 0, 0] S64x1x768
  shapeCasts_S64x1x768_S64x768 : S64x1x768.ShapeCasts S64x768
  slices_S64x16x2_S64x16x1_0_0_0 : S64x16x2.Slices ![0, 0, 0] S64x16x1
  shapeCasts_S64x16x1_S64x16 : S64x16x1.ShapeCasts S64x16
  bcast_S64x16_S64x16x1_0_1 : S64x16.BroadcastsInDim S64x16x1 (![0, 1] : Fin 2 → Fin S64x16x1.rank)
  slices_S64x16x2_S64x16x1_0_0_1 : S64x16x2.Slices ![0, 0, 1] S64x16x1
  bcast_S512_S1x1x512_2 : S512.BroadcastsInDim S1x1x512 (![2] : Fin 1 → Fin S1x1x512.rank)
  bcast_S1x1x512_S64x16x512_0_1_2 : S1x1x512.BroadcastsInDim S64x16x512 (![0, 1, 2] : Fin 3 → Fin S64x16x512.rank)
  bcast_S64x16x1_S64x16x512_0_1_2 : S64x16x1.BroadcastsInDim S64x16x512 (![0, 1, 2] : Fin 3 → Fin S64x16x512.rank)
  bcast_S64x16x1_S64x16x768_0_1_2 : S64x16x1.BroadcastsInDim S64x16x768 (![0, 1, 2] : Fin 3 → Fin S64x16x768.rank)
  shapeCasts_S64x16x768_S1024x768 : S64x16x768.ShapeCasts S1024x768
  bcast_S_S64x16 : S_.BroadcastsInDim S64x16 (![] : Fin 0 → Fin S64x16.rank)
  dot_S64x512x768_S768x768_S64x512x768_2_1_01_0_n_n_wf : DotDims.WF S64x512x768 S768x768 S64x512x768 [2] [1] [0, 1] [0] [] []
  dot_S64x16x512_S64x512x768_S64x16x768_2_1_1_2_0_0_wf : DotDims.WF S64x16x512 S64x512x768 S64x16x768 [2] [1] [1] [2] [0] [0]

variable [Facts₀]

def dot_S64x512x768_S768x768_S64x512x768_2_1_01_0_n_n : DotDims S64x512x768 S768x768 S64x512x768 where
  lhsContracting := [2]
  rhsContracting := [1]
  lhsNonContracting := [0, 1]
  rhsNonContracting := [0]
  lhsBatch := []
  rhsBatch := []
  wf := dot_S64x512x768_S768x768_S64x512x768_2_1_01_0_n_n_wf
def dot_S64x16x512_S64x512x768_S64x16x768_2_1_1_2_0_0 : DotDims S64x16x512 S64x512x768 S64x16x768 where
  lhsContracting := [2]
  rhsContracting := [1]
  lhsNonContracting := [1]
  rhsNonContracting := [2]
  lhsBatch := [0]
  rhsBatch := [0]
  wf := dot_S64x16x512_S64x512x768_S64x16x768_2_1_1_2_0_0_wf

class Facts : Prop extends Facts₀ where

variable [Facts]
-- ==== Proof.PoolerSpec.lean ====
/-
  The pooler as plain formulas over the extended reals.

  For passage n, token l and output feature o the dense layer followed by tanh is
      pooled n l o = tanh (Σ_k x[n, l, k] · w[o, k] + b[o]).
  The passage embedding is the first token's row, pooled n 0 o.  A span s of passage n is the set of
  positions l with start ≤ l < end (signed comparison of 32-bit words), its indicator is 0 or 1, its
  length is the signed word end − start read as an integer, and the span embedding is
      sent n s o = (Σ_l indicator n s l · pooled n l o) / length n s,
  with the extended reals' quotient, whatever the length (zero and negative lengths included: both
  programs divide by the same number).  The three results are these, laid out as [64, 768],
  [64·16, 768] (row 16 n + s) and a [64, 16] array of zeros.
-/
import Idealize.ShloMosaic.PureOps.Ideal
import Idealize.ShloMosaic.PureOps.Ideal.Laws
import Idealize.ShloMosaic.Lib.ValueIdx

noncomputable section

namespace Cert.Pooler

open Idealize.ShloMosaic Idealize.ShloMosaic.ValueIdx

abbrev Tok : Shape := ⟨3, ![64, 512, 768]⟩
abbrev Wt : Shape := ⟨2, ![768, 768]⟩
abbrev Bias : Shape := ⟨1, ![768]⟩
abbrev Spans : Shape := ⟨3, ![64, 16, 2]⟩

/-- The dense layer and tanh at token `l` of passage `n`, output feature `o`. -/
def pooled (x : FVec Ideal Tok .f32) (w : FVec Ideal Wt .f32) (b : FVec Ideal Bias .f32)
    (n : Fin 64) (l : Fin 512) (o : Fin 768) : EReal :=
  Ideal.tanh ((∑ k : Fin 768, x (ix3 n l k) * w (ix2 o k)) + b (ix1 o))

/-- The indicator of position `l` in the span with the given start and end words: 1 when start ≤ l < end, else 0. -/
def indicator (st en : BitVec 32) (l : Fin 512) : EReal :=
  (((IntOp.andi (IntOp.cmpi .sge (BitVec.ofNat 32 l.val) st) (IntOp.cmpi .slt (BitVec.ofNat 32 l.val) en)).toNat : ℝ) : EReal)

/-- The span's length: the word end − start read as a signed integer. -/
def spanLen (st en : BitVec 32) : EReal := (((IntOp.subi en st).toInt : ℝ) : EReal)

/-- The mean of the pooled rows over span `s` of passage `n`, at feature `o`. -/
def sent (x : FVec Ideal Tok .f32) (w : FVec Ideal Wt .f32) (b : FVec Ideal Bias .f32) (sp : IVec Spans 32)
    (n : Fin 64) (s : Fin 16) (o : Fin 768) : EReal :=
  Ideal.div (∑ l : Fin 512, indicator (sp (ix3 n s 0)) (sp (ix3 n s 1)) l * pooled x w b n l o)
    (spanLen (sp (ix3 n s 0)) (sp (ix3 n s 1)))

/-- The passage embeddings, [64, 768]. -/
def passOut (x : FVec Ideal Tok .f32) (w : FVec Ideal Wt .f32) (b : FVec Ideal Bias .f32) :
    FVec Ideal ⟨2, ![64, 768]⟩ .f32 := fun i => pooled x w b (i 0) 0 (i 1)

/-- The span embeddings, [1024, 768]: row 16 n + s is span s of passage n. -/
def sentOut (x : FVec Ideal Tok .f32) (w : FVec Ideal Wt .f32) (b : FVec Ideal Bias .f32) (sp : IVec Spans 32) :
    FVec Ideal ⟨2, ![1024, 768]⟩ .f32 := fun i =>
  sent x w b sp ⟨(i 0).val / 16, by have h : (i 0).val < 1024 := (i 0).isLt; show (i 0).val / 16 < 64; omega⟩
    ⟨(i 0).val % 16, Nat.mod_lt _ (by decide)⟩ (i 1)

/-- The span mask, [64, 16]: all zeros. -/
def maskOut : FVec Ideal ⟨2, ![64, 16]⟩ .f32 := fun _ => 0

/-- A one-bit word widened to 32 bits and read signed is the bit read unsigned. -/
theorem bit_widened_signed (b : BitVec 1) : ((b.setWidth 32).toInt : ℝ) = (b.toNat : ℝ) := by
  have h : ∀ b : BitVec 1, (b.setWidth 32).toInt = (b.toNat : Int) := by decide
  rw [h b]; simp

end Cert.Pooler

end
-- ==== Proof.RefIsSpec.lean ====
/-
  The reference's three results are the pooler's formulas.

  Read one operation at a time, the reference computes at token (n, l) the sum over k of x[n, l, k] · w[o, k]
  plus b[o], then tanh; the first result is the slice l = 0 of that, flattened.  Its span mask at
  (n, s, l) compares the position l with the two words of span s, its batched product sums mask · pooled
  over l, and the quotient divides by the signed difference of the two words; the reshape to 1024 rows
  puts span s of passage n at row 16 n + s, so row r is span r mod 16 of passage r div 16.
-/
import proofs.«161412_j34608846471536_1_alg».proof.Proof.Gen.ReferenceIdeal.Read
import proofs.«161412_j34608846471536_1_alg».proof.Proof.PoolerSpec

noncomputable section

namespace Cert.ReferenceIdeal.RefValue

open Cert.ReferenceIdeal Cert.ReferenceIdeal.Read Cert.Pooler Idealize.ShloMosaic Idealize.ShloMosaic.ValueIdx

variable (x0 : FVec Ideal Tok .f32) (x1 : FVec Ideal Wt .f32) (x2 : FVec Ideal Bias .f32) (x4 : IVec Spans 32)

/-! ### The dense layer -/

theorem lidx_dense (n : Fin 64) (l : Fin 512) (o k : Fin 768) : lidx_main_v0 (ix3 n l o) k = ix3 n l k :=
  funext fun a => Fin.ext (by match a with | ⟨0, _⟩ => rfl | ⟨1, _⟩ => rfl | ⟨2, _⟩ => rfl)

theorem ridx_dense (n : Fin 64) (l : Fin 512) (o k : Fin 768) : ridx_main_v0 (ix3 n l o) k = ix2 o k :=
  funext fun a => Fin.ext (by match a with | ⟨0, _⟩ => rfl | ⟨1, _⟩ => rfl)

theorem idx_bias (n : Fin 64) (l : Fin 512) (o : Fin 768) : idx_main_v1 (idx_main_v2 (ix3 n l o)) = ix1 o :=
  funext fun a => Fin.ext (by match a with | ⟨0, _⟩ => rfl)

/-- The reference's activations at token (n, l), feature o. -/
theorem act_apply (n : Fin 64) (l : Fin 512) (o : Fin 768) :
    val_main_v4 (F := Ideal) x0 x1 x2 (ix3 n l o) = pooled x0 x1 x2 n l o := by
  rw [val_main_v4_apply, val_main_v3_apply, val_main_v0_apply, val_main_v2_apply, val_main_v1_apply, idx_bias]
  simp only [lidx_dense, ridx_dense]
  rfl

/-! ### The first result -/

theorem idx_first (n : Fin 64) (o : Fin 768) : idx_main_v5 (idx_main_v6 (ix2 n o)) = ix3 n (0 : Fin 512) o :=
  funext fun a => Fin.ext (by
    have h0 : n.val < 64 := n.isLt
    have h1 : o.val < 768 := o.isLt
    match a with
    | ⟨0, _⟩ => show (n.val * 768 + o.val) / 768 = n.val; omega
    | ⟨1, _⟩ => rfl
    | ⟨2, _⟩ => show (n.val * 768 + o.val) % 768 = o.val; omega)

theorem first_eq : val_main_v6 (F := Ideal) x0 x1 x2 = passOut x0 x1 x2 := by
  funext i
  obtain ⟨n, o, rfl⟩ : ∃ (n : Fin 64) (o : Fin 768), i = ix2 n o := ⟨i 0, i 1, eq_ix2 i⟩
  rw [val_main_v6_apply, val_main_v5_apply, idx_first, act_apply]
  rfl

/-! ### The span words -/

theorem idx_word0 (n : Fin 64) (s : Fin 16) : idx_main_v8 (idx_main_v9 (ix2 n s)) = ix3 n s (0 : Fin 2) :=
  funext fun a => Fin.ext (by
    have h0 : n.val < 64 := n.isLt
    have h1 : s.val < 16 := s.isLt
    match a with
    | ⟨0, _⟩ => show (n.val * 16 + s.val) / 16 = n.val; omega
    | ⟨1, _⟩ => show (n.val * 16 + s.val) / 1 % 16 = s.val; omega
    | ⟨2, _⟩ => rfl)

theorem idx_word1 (n : Fin 64) (s : Fin 16) : idx_main_v11 (idx_main_v12 (ix2 n s)) = ix3 n s (1 : Fin 2) :=
  funext fun a => Fin.ext (by
    have h0 : n.val < 64 := n.isLt
    have h1 : s.val < 16 := s.isLt
    match a with
    | ⟨0, _⟩ => show (n.val * 16 + s.val) / 16 = n.val; omega
    | ⟨1, _⟩ => show (n.val * 16 + s.val) / 1 % 16 = s.val; omega
    | ⟨2, _⟩ => rfl)

theorem idx_word1' (n : Fin 64) (s : Fin 16) : idx_main_v25 (idx_main_v26 (ix2 n s)) = ix3 n s (1 : Fin 2) :=
  funext fun a => Fin.ext (by
    have h0 : n.val < 64 := n.isLt
    have h1 : s.val < 16 := s.isLt
    match a with
    | ⟨0, _⟩ => show (n.val * 16 + s.val) / 16 = n.val; omega
    | ⟨1, _⟩ => show (n.val * 16 + s.val) / 1 % 16 = s.val; omega
    | ⟨2, _⟩ => rfl)

theorem idx_word0' (n : Fin 64) (s : Fin 16) : idx_main_v27 (idx_main_v28 (ix2 n s)) = ix3 n s (0 : Fin 2) :=
  funext fun a => Fin.ext (by
    have h0 : n.val < 64 := n.isLt
    have h1 : s.val < 16 := s.isLt
    match a with
    | ⟨0, _⟩ => show (n.val * 16 + s.val) / 16 = n.val; omega
    | ⟨1, _⟩ => show (n.val * 16 + s.val) / 1 % 16 = s.val; omega
    | ⟨2, _⟩ => rfl)

/-- The span starts, as the mask reads them. -/
theorem start_apply (n : Fin 64) (s : Fin 16) : val_main_v9 (F := Ideal) x4 (ix2 n s) = x4 (ix3 n s 0) := by
  rw [val_main_v9_apply, val_main_v8_apply, idx_word0]
/-- The span ends, as the mask reads them. -/
theorem end_apply (n : Fin 64) (s : Fin 16) : val_main_v12 (F := Ideal) x4 (ix2 n s) = x4 (ix3 n s 1) := by
  rw [val_main_v12_apply, val_main_v11_apply, idx_word1]
/-- The span ends, as the length reads them. -/
theorem end_apply' (n : Fin 64) (s : Fin 16) : val_main_v26 (F := Ideal) x4 (ix2 n s) = x4 (ix3 n s 1) := by
  rw [val_main_v26_apply, val_main_v25_apply, idx_word1']
/-- The span starts, as the length reads them. -/
theorem start_apply' (n : Fin 64) (s : Fin 16) : val_main_v28 (F := Ideal) x4 (ix2 n s) = x4 (ix3 n s 0) := by
  rw [val_main_v28_apply, val_main_v27_apply, idx_word0']

/-! ### The mask -/

theorem idx_pos (n : Fin 64) (s : Fin 16) (l : Fin 512) :
    idx_main_v14 (idx_main_v15 (ix3 n s l)) = ix1 l :=
  funext fun a => Fin.ext (by match a with | ⟨0, _⟩ => rfl)
theorem idx_pos' (n : Fin 64) (s : Fin 16) (l : Fin 512) :
    idx_main_v18 (idx_main_v19 (ix3 n s l)) = ix1 l :=
  funext fun a => Fin.ext (by match a with | ⟨0, _⟩ => rfl)
theorem idx_st (n : Fin 64) (s : Fin 16) (l : Fin 512) :
    idx_main_v10 (idx_main_v16 (ix3 n s l)) = ix2 n s :=
  funext fun a => Fin.ext (by match a with | ⟨0, _⟩ => rfl | ⟨1, _⟩ => rfl)
theorem idx_en (n : Fin 64) (s : Fin 16) (l : Fin 512) :
    idx_main_v13 (idx_main_v20 (ix3 n s l)) = ix2 n s :=
  funext fun a => Fin.ext (by match a with | ⟨0, _⟩ => rfl | ⟨1, _⟩ => rfl)

/-- The reference's mask at (n, s, l) is the span's indicator. -/
theorem mask_apply (n : Fin 64) (s : Fin 16) (l : Fin 512) :
    val_main_v23 (F := Ideal) x4 (ix3 n s l) = indicator (x4 (ix3 n s 0)) (x4 (ix3 n s 1)) l := by
  rw [val_main_v23_apply, val_main_v22_apply, val_main_v17_apply, val_main_v21_apply,
    val_main_v15_apply, val_main_v14_apply, idx_pos, val_main_v7_apply,
    val_main_v19_apply, val_main_v18_apply, idx_pos', val_main_v7_apply,
    val_main_v16_apply, val_main_v10_apply, idx_st, start_apply,
    val_main_v20_apply, val_main_v13_apply, idx_en, end_apply]
  rfl

/-! ### The span means -/

theorem lidx_span (n : Fin 64) (s : Fin 16) (o : Fin 768) (l : Fin 512) : lidx_main_v24 (ix3 n s o) l = ix3 n s l :=
  funext fun a => Fin.ext (by match a with | ⟨0, _⟩ => rfl | ⟨1, _⟩ => rfl | ⟨2, _⟩ => rfl)
theorem ridx_span (n : Fin 64) (s : Fin 16) (o : Fin 768) (l : Fin 512) : ridx_main_v24 (ix3 n s o) l = ix3 n l o :=
  funext fun a => Fin.ext (by match a with | ⟨0, _⟩ => rfl | ⟨1, _⟩ => rfl | ⟨2, _⟩ => rfl)
theorem idx_len (n : Fin 64) (s : Fin 16) (o : Fin 768) : idx_main_v31 (idx_main_v32 (ix3 n s o)) = ix2 n s :=
  funext fun a => Fin.ext (by match a with | ⟨0, _⟩ => rfl | ⟨1, _⟩ => rfl)

/-- The reference's quotient at (n, s, o) is the span's mean. -/
theorem mean_apply (n : Fin 64) (s : Fin 16) (o : Fin 768) :
    val_main_v33 (F := Ideal) x0 x1 x2 x4 (ix3 n s o) = sent x0 x1 x2 x4 n s o := by
  rw [val_main_v33_apply, val_main_v24_apply, val_main_v32_apply, val_main_v31_apply, idx_len,
    val_main_v30_apply, val_main_v29_apply, end_apply', start_apply']
  simp only [lidx_span, ridx_span, mask_apply, act_apply]
  rfl

theorem idx_row (r : Fin 1024) (o : Fin 768) :
    idx_main_v34 (ix2 r o) = ix3 (⟨r.val / 16, by have h : r.val < 1024 := r.isLt; omega⟩ : Fin 64)
      (⟨r.val % 16, Nat.mod_lt _ (by decide)⟩ : Fin 16) o :=
  funext fun a => Fin.ext (by
    have h0 : r.val < 1024 := r.isLt
    have h1 : o.val < 768 := o.isLt
    match a with
    | ⟨0, _⟩ => show (r.val * 768 + o.val) / 12288 = r.val / 16; omega
    | ⟨1, _⟩ => show (r.val * 768 + o.val) / 768 % 16 = r.val % 16; omega
    | ⟨2, _⟩ => show (r.val * 768 + o.val) % 768 = o.val; omega)

theorem second_eq : val_main_v34 (F := Ideal) x0 x1 x2 x4 = sentOut x0 x1 x2 x4 := by
  funext i
  obtain ⟨r, o, rfl⟩ : ∃ (r : Fin 1024) (o : Fin 768), i = ix2 r o := ⟨i 0, i 1, eq_ix2 i⟩
  rw [val_main_v34_apply, idx_row, mean_apply]
  rfl

/-! ### The third result -/

theorem third_eq : val_main_v35 (F := Ideal) = maskOut := by
  funext i
  rw [val_main_v35_apply, val_main_cst_apply]
  exact Ideal.ofBits_zero_f32

end Cert.ReferenceIdeal.RefValue

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.BodyValue.lean ====
/-
  What the kernel body computes from the blocks it loads, read at an index.

  From the token block v0 ([1, 512, 768]), the weight v2 ([768, 768]) and the bias v7 ([768]) the body forms
  act l o = tanh (Σ_k v0[0, l, k] · v2[o, k] + v7[o]): the weight enters the product transposed, and the changes of
  float format are the identity over the extended reals.  It stores row 0 of act as the passage block.
  From the span block v16 ([1, 16, 2]) it takes column 0 as the starts and column 1 as the ends, forms the
  indicator of start ≤ l < end as a 0/1 number, multiplies it into act and divides by the signed difference
  end − start.
-/
import proofs.«161412_j34608846471536_1_alg».proof.Proof.Gen.KernelIdeal.Skeleton
import proofs.«161412_j34608846471536_1_alg».proof.Proof.LibPlainDot
import proofs.«161412_j34608846471536_1_alg».proof.Proof.LibColumnForms
import proofs.«161412_j34608846471536_1_alg».proof.Proof.PoolerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Cert.Pooler Idealize.ShloMosaic Idealize.ShloMosaic.ValueIdx
open Idealize.ShloMosaic.ColumnForms

variable (v0 : Vec Ideal S1x512x768 .f32) (v2 : Vec Ideal S768x768 .f32) (v7 : Vec Ideal S768 .f32)
  (v16 : Vec Ideal S1x16x2 .i32)

/-- The block's activations: the dense layer and tanh on the token block. -/
def blockAct (l : Fin 512) (o : Fin 768) : EReal :=
  Ideal.tanh ((∑ k : Fin 768, v0 (ix3 (0 : Fin 1) l k) * v2 (ix2 o k)) + v7 (ix1 o))

/-- The body's activations at (l, o). -/
theorem act_apply (l : Fin 512) (o : Fin 768) :
    k0_pay1 (F := Ideal) v0 v2 v7 (ix2 l o) = blockAct v0 v2 v7 l o := by
  unfold k0_pay1 blockAct
  show Ideal.tanh (
      FloatOps.matmul (F := Ideal) dot_S512x768_S768x768_S512x768_1_0_0_1_n_n none
        (truncf .bf16 (shapeCast S512x768 v0 shapeCasts_S1x512x768_S512x768) bitsLt_bf16_f32)
        (transpose S768x768 [1, 0] (truncf .bf16 v2 bitsLt_bf16_f32) transposes_S768x768_p1_0_S768x768)
        (constant S512x768 .f32 0x00000000#32) (ix2 l o)
      + broadcastTo S512x768 (shapeCast S1x768 v7 shapeCasts_S768_S1x768) broadcasts_S1x768_S512x768 (ix2 l o)) = _
  rw [Cert.LibPlainDot.matmul_zero_apply _ rfl rfl rfl rfl rfl rfl none, broadcastTo_1b_ab_apply, shapeCast_a_1a_apply]
  refine congrArg (fun z => Ideal.tanh (z + v7 (ix1 o))) (Finset.sum_congr rfl fun k _ => ?_)
  rw [truncf_apply, shapeCast_1ab_ab_apply, transpose_ix2_apply, truncf_apply]

/-- The passage block is row 0 of the activations. -/
theorem first_row_apply (u u' : Fin 1) (o : Fin 768) :
    k0_pay2 (F := Ideal) v0 v2 v7 (ix3 u u' o) = k0_pay1 (F := Ideal) v0 v2 v7 (ix2 (0 : Fin 512) o) := by
  unfold k0_pay2
  show shapeCast S1x1x768 (shapeCast S768 (extractStridedSlice S1x768 ![0, 0] (k0_pay1 (F := Ideal) v0 v2 v7)
      slices_S512x768_o0_0_S1x768) shapeCasts_S1x768_S768) shapeCasts_S768_S1x1x768 (ix3 u u' o) = _
  have hu : u.val = 0 := by omega
  have hu' : u'.val = 0 := by omega
  rw [shapeCast_apply _ shapeCasts_S768_S1x1x768 (ix3 u u' o) (ix1 o) (by
      rw [Shape.rowMajor_val_one, Shape.rowMajor_val_three]
      show o.val = (u.val * 1 + u'.val) * 768 + o.val
      omega),
    shapeCast_1a_a_apply, slice2_axis0_apply 0 _ _ (0 : Fin 1) o (0 : Fin 512) rfl]

/-- The span starts as a column: column 0 of the span block. -/
def startCol : IVec S16x1 32 :=
  shapeCast S16x1 (shapeCast S16 (extractStridedSlice S16x1 ![0, 0] (shapeCast S16x2 v16 shapeCasts_S1x16x2_S16x2)
    slices_S16x2_o0_0_S16x1) shapeCasts_S16x1_S16) shapeCasts_S16_S16x1
/-- The span ends as a column: column 1 of the span block. -/
def endCol : IVec S16x1 32 :=
  shapeCast S16x1 (shapeCast S16 (extractStridedSlice S16x1 ![0, 1] (shapeCast S16x2 v16 shapeCasts_S1x16x2_S16x2)
    slices_S16x2_o0_1_S16x1) shapeCasts_S16x1_S16) shapeCasts_S16_S16x1

theorem startCol_apply (s : Fin 16) : startCol v16 (ix2 s (0 : Fin 1)) = v16 (ix3 (0 : Fin 1) s (0 : Fin 2)) := by
  unfold startCol
  rw [shapeCast_shapeCast, slice2_axis1_apply 0 _ _ s (0 : Fin 1) (0 : Fin 2) rfl, shapeCast_1ab_ab_apply]

theorem endCol_apply (s : Fin 16) : endCol v16 (ix2 s (0 : Fin 1)) = v16 (ix3 (0 : Fin 1) s (1 : Fin 2)) := by
  unfold endCol
  rw [shapeCast_shapeCast, slice2_axis1_apply 1 _ _ s (0 : Fin 1) (1 : Fin 2) rfl, shapeCast_1ab_ab_apply]

/-- The span block's mean at (s, o): the indicator-weighted sum of the activations over the positions, divided by the span's length. -/
theorem span_apply (s : Fin 16) (o : Fin 768) :
    k0_pay3 (F := Ideal) v0 v2 v7 v16 (ix2 s o)
      = Ideal.div (∑ l : Fin 512, indicator (v16 (ix3 (0 : Fin 1) s (0 : Fin 2))) (v16 (ix3 (0 : Fin 1) s (1 : Fin 2))) l
            * k0_pay1 (F := Ideal) v0 v2 v7 (ix2 l o))
          (spanLen (v16 (ix3 (0 : Fin 1) s (0 : Fin 2))) (v16 (ix3 (0 : Fin 1) s (1 : Fin 2)))) := by
  unfold k0_pay3
  show Ideal.div
      (FloatOps.matmul (F := Ideal) dot_S16x512_S512x768_S16x768_1_0_0_1_n_n none
        (sitofp (F := Ideal) .f32 (extui 32 (andi
          (cmpi .sge (iota .tc S16x512 32 [1] iota_S16x512_d1_w32) (broadcastTo S16x512 (startCol v16) broadcasts_S16x1_S16x512))
          (cmpi .slt (iota .tc S16x512 32 [1] iota_S16x512_d1_w32) (broadcastTo S16x512 (endCol v16) broadcasts_S16x1_S16x512)))
          natLt_1_32))
        (k0_pay1 (F := Ideal) v0 v2 v7) (constant S16x768 .f32 0x00000000#32) (ix2 s o))
      (broadcastTo S16x768 (sitofp (F := Ideal) .f32 (subi (endCol v16) (startCol v16))) broadcasts_S16x1_S16x768 (ix2 s o)) = _
  rw [Cert.LibPlainDot.matmul_zero_apply _ rfl rfl rfl rfl rfl rfl none, broadcastTo_a1_ac_apply]
  have hlen : sitofp (F := Ideal) .f32 (subi (endCol v16) (startCol v16)) (ix2 s (0 : Fin 1))
      = spanLen (v16 (ix3 (0 : Fin 1) s (0 : Fin 2))) (v16 (ix3 (0 : Fin 1) s (1 : Fin 2))) := by
    show (((IntOp.subi (endCol v16 (ix2 s (0 : Fin 1))) (startCol v16 (ix2 s (0 : Fin 1)))).toInt : ℝ) : EReal) = _
    rw [startCol_apply, endCol_apply]
    rfl
  rw [hlen]
  refine congrArg (fun z => Ideal.div z _) (Finset.sum_congr rfl fun l _ => ?_)
  refine congrArg (fun z => z * k0_pay1 (F := Ideal) v0 v2 v7 (ix2 l o)) ?_
  show ((((IntOp.andi
        (IntOp.cmpi .sge (iota .tc S16x512 32 [1] iota_S16x512_d1_w32 (ix2 s l)) (broadcastTo S16x512 (startCol v16) broadcasts_S16x1_S16x512 (ix2 s l)))
        (IntOp.cmpi .slt (iota .tc S16x512 32 [1] iota_S16x512_d1_w32 (ix2 s l)) (broadcastTo S16x512 (endCol v16) broadcasts_S16x1_S16x512 (ix2 s l)))).setWidth 32).toInt : ℝ) : EReal) = _
  rw [iota_single_apply, broadcastTo_a1_ac_apply, broadcastTo_a1_ac_apply, startCol_apply, endCol_apply, bit_widened_signed]
  rfl

end Cert.KernelIdeal.BodyValue

end
-- ==== Proof.KernelArrays.lean ====
/-
  The kernel's two output arrays after the run, and the three results of the program.

  Grid point t handles passage t: its token block is rows [t, :, :] of the tokens, its span block rows
  [t, :, :] of the spans, the weight and the bias are read whole; it writes block [t, 0, :] of the passage
  array and rows 16 t … 16 t + 15 of the span array.  So what point t writes back is its block of one function
  of the argument arrays, every index of either array lies in exactly one point's block, and the arrays end
  holding those functions.  After the region the program flattens the passage array [64, 1, 768] to [64, 768]
  and fills the mask with zeros.
-/
import proofs.«161412_j34608846471536_1_alg».proof.Proof.Gen.KernelIdeal.Frame
import proofs.«161412_j34608846471536_1_alg».proof.Proof.BodyValue
import proofs.«161412_j34608846471536_1_alg».proof.Proof.PoolerSpec
import Idealize.ShloMosaic.Lib.StableHlo.Run

set_option maxRecDepth 16384

noncomputable section

namespace Cert.KernelIdeal.ArrValue

open Cert.KernelIdeal Cert.KernelIdeal.Gen Cert.KernelIdeal.BodyValue Cert.Pooler
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays and the blocks, at their literal types -/

abbrev tokArr (c : Dev nD) : Vec Ideal S64x512x768 .f32 := V m c main_arg0
abbrev wtArr (c : Dev nD) : Vec Ideal S768x768 .f32 := V m c main_arg1
abbrev biasArr (c : Dev nD) : Vec Ideal S768 .f32 := V m c main_arg2
abbrev spanArr (c : Dev nD) : Vec Ideal S64x16x2 .i32 := V m c main_arg4

abbrev tokBlk (c : Dev nD) (t : Fin cfg0.N) : Vec Ideal S1x512x768 .f32 := iblk m c 0 t
abbrev wtBlk (c : Dev nD) (t : Fin cfg0.N) : Vec Ideal S768x768 .f32 := iblk m c 1 t
abbrev biasBlk (c : Dev nD) (t : Fin cfg0.N) : Vec Ideal S768 .f32 := iblk m c 2 t
abbrev spanBlk (c : Dev nD) (t : Fin cfg0.N) : Vec Ideal S1x16x2 .i32 := iblk m c 3 t

/-- The passage a grid point handles. -/
abbrev psg (t : Fin cfg0.N) : Fin 64 := Fin.cast N_0 t

/-- The printed index maps over the grid: point t's blocks are at passage t, the weight and the bias at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- The token block of point t is passage t of the tokens. -/
theorem tokBlk_apply (c : Dev nD) (t : Fin cfg0.N) (l : Fin 512) (k : Fin 768) :
    tokBlk m c t (ix3 (0 : Fin 1) l k) = tokArr m c (ix3 (psg t) l k) := by
  obtain ⟨e0, e1, e2, -⟩ := idx_facts t
  show V m c main_arg0 (((cfg0.win 0).blk t).view.emb (ix3 (0 : Fin 1) l k)) = V m c main_arg0 (ix3 (psg t) l k)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 768 + 1 * k.val = k.val; omega

/-- The weight block is the weight. -/
theorem wtBlk_eq (c : Dev nD) (t : Fin cfg0.N) : wtBlk m c t = wtArr m c := by
  obtain ⟨-, -, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 768 + 1 * (j 0).val = (j 0).val; omega
  | ⟨1, _⟩ => show win0_1.index t (1 : Fin 2) * 768 + 1 * (j 1).val = (j 1).val; omega

/-- The bias block is the bias. -/
theorem biasBlk_eq (c : Dev nD) (t : Fin cfg0.N) : biasBlk m c t = biasArr m c := by
  obtain ⟨-, -, -, -, -, e0, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 1) * 768 + 1 * (j 0).val = (j 0).val; omega

/-- The span block of point t is passage t of the spans. -/
theorem spanBlk_apply (c : Dev nD) (t : Fin cfg0.N) (s : Fin 16) (e : Fin 2) :
    spanBlk m c t (ix3 (0 : Fin 1) s e) = spanArr m c (ix3 (psg t) s e) := by
  obtain ⟨-, -, -, -, -, -, e0, e1, e2, -⟩ := idx_facts t
  show V m c main_arg4 (((cfg0.win 3).blk t).view.emb (ix3 (0 : Fin 1) s e)) = V m c main_arg4 (ix3 (psg t) s e)
  refine congrArg (V m c main_arg4) (funext fun a => Fin.ext ?_)
  match a with
  | ⟨0, _⟩ => show win0_3.index t (0 : Fin 3) * 1 + 1 * 0 = t.val; omega
  | ⟨1, _⟩ => show win0_3.index t (1 : Fin 3) * 16 + 1 * s.val = s.val; omega
  | ⟨2, _⟩ => show win0_3.index t (2 : Fin 3) * 2 + 1 * e.val = e.val; omega

/-! ## What the body computes at point t, over the argument arrays -/

/-- The activations of point t's token block are passage t's. -/
theorem act_blk (c : Dev nD) (t : Fin cfg0.N) (l : Fin 512) (o : Fin 768) :
    k0_pay1 (F := Ideal) (tokBlk m c t) (wtBlk m c t) (biasBlk m c t) (ix2 l o)
      = pooled (tokArr m c) (wtArr m c) (biasArr m c) (psg t) l o := by
  refine (act_apply (tokBlk m c t) (wtBlk m c t) (biasBlk m c t) l o).trans ?_
  unfold blockAct pooled
  rw [wtBlk_eq, biasBlk_eq]
  exact congrArg (fun z => Ideal.tanh (z + biasArr m c (ix1 o)))
    (Finset.sum_congr rfl fun k _ => congrArg (fun z => z * wtArr m c (ix2 o k)) (tokBlk_apply m c t l k))

/-- The passage block of point t. -/
theorem pass_blk (c : Dev nD) (t : Fin cfg0.N) (j : S1x1x768.Idx) :
    k0_pay2 (F := Ideal) (tokBlk m c t) (wtBlk m c t) (biasBlk m c t) j
      = pooled (tokArr m c) (wtArr m c) (biasArr m c) (psg t) 0 (j 2) := by
  obtain ⟨u, u', o, rfl⟩ : ∃ (u u' : Fin 1) (o : Fin 768), j = ix3 u u' o := ⟨j 0, j 1, j 2, eq_ix3 j⟩
  exact (first_row_apply (tokBlk m c t) (wtBlk m c t) (biasBlk m c t) u u' o).trans (act_blk m c t 0 o)

/-- The span block of point t. -/
theorem sent_blk (c : Dev nD) (t : Fin cfg0.N) (j : S16x768.Idx) :
    k0_pay3 (F := Ideal) (tokBlk m c t) (wtBlk m c t) (biasBlk m c t) (spanBlk m c t) j
      = sent (tokArr m c) (wtArr m c) (biasArr m c) (spanArr m c) (psg t) (j 0) (j 1) := by
  obtain ⟨s, o, rfl⟩ : ∃ (s : Fin 16) (o : Fin 768), j = ix2 s o := ⟨j 0, j 1, eq_ix2 j⟩
  refine (span_apply (tokBlk m c t) (wtBlk m c t) (biasBlk m c t) (spanBlk m c t) s o).trans ?_
  unfold sent
  rw [spanBlk_apply, spanBlk_apply]
  exact congrArg (fun z => Ideal.div z _) (Finset.sum_congr rfl fun l _ => congrArg (fun z => _ * z) (act_blk m c t l o))

/-! ## The passage array -/

/-- The passage array [64, 1, 768] as a function of the arguments. -/
def passArr (c : Dev nD) : Vec Ideal S64x1x768 .f32 := fun i =>
  pooled (tokArr m c) (wtArr m c) (biasArr m c) (i 0) 0 (i 2)

theorem flushed4_eq (c : Dev nD) (t : Fin cfg0.N) :
    (dats m 0 c).flushed 4 t = ((cfg0.win 4).blk t).view.read (Elt Ideal) (passArr m c) := by
  show (cfg0.win 4).cut (grid0.coords t) ((dats m 0 c).after 4 t) = _
  rw [after0_4]
  unfold out0_4
  rw [View.canon_unit_zero hz3]
  simp only [View.ld_unit_zero (S := S1x512x768) hz3, View.ld_unit_zero (S := S768x768) hz2, View.ld_unit_zero (S := S768) hz1]
  obtain ⟨-, -, -, -, -, -, -, -, -, e0, e1, e2, -⟩ := idx_facts t
  funext j
  show k0_pay2 (F := Ideal) (tokBlk m c t) (wtBlk m c t) (biasBlk m c t) j = passArr m c (((cfg0.win 4).blk t).view.emb j)
  refine (pass_blk m c t j).trans ?_
  have h0 : (j 0).val < 1 := (j 0).isLt
  have a0 : (((cfg0.win 4).blk t).view.emb j) 0 = psg t := Fin.ext (by
    show win0_4.index t (0 : Fin 3) * 1 + 1 * (j 0).val = t.val; omega)
  have a2 : (((cfg0.win 4).blk t).view.emb j) 2 = j 2 := Fin.ext (by
    show win0_4.index t (2 : Fin 3) * 768 + 1 * (j 2).val = (j 2).val; omega)
  unfold passArr
  rw [a0, a2]

theorem mem_blk4 (t : Fin cfg0.N) (i : S64x1x768.Idx) :
    i ∈ ((cfg0.win 4).blk t).view.set ↔ ∀ a : Fin 3, win0_4.index t a * S1x1x768.size a ≤ (i a).val ∧ (i a).val < win0_4.index t a * S1x1x768.size a + S1x1x768.size a := by
  show i ∈ ((View.whole main_v0_0).slice (win0_4.rect t)).set ↔ _
  rw [View.set_slice_whole, Rect.mem_set_unit]
  exact Iff.rfl

theorem cover4 (i : S64x1x768.Idx) : ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 768 := (i 2).isLt
  refine ⟨Fin.cast N_0.symm (⟨(i 0).val, h0⟩ : Fin 64), flush0_4 _, ?_⟩
  obtain ⟨-, -, -, -, -, -, -, -, -, e0, e1, e2, -⟩ := idx_facts (Fin.cast N_0.symm (⟨(i 0).val, h0⟩ : Fin 64))
  have ev : (Fin.cast N_0.symm (⟨(i 0).val, h0⟩ : Fin 64)).val = (i 0).val := rfl
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 768 ≤ (i 2).val ∧ (i 2).val < win0_4.index _ (2 : Fin 3) * 768 + 768; omega

/-- The passage array after the run. -/
theorem final4 (c : Dev nD) : (dats m 0 c).arrAt 4 cfg0.N = passArr m c :=
  (dats m 0 c).arrAt_eq_of_cover 4 (passArr m c) (fun t _ => flushed4_eq m c t) cover4

/-! ## The span array -/

/-- The span array [1024, 768] as a function of the arguments. -/
def sentArr (c : Dev nD) : Vec Ideal S1024x768 .f32 :=
  sentOut (tokArr m c) (wtArr m c) (biasArr m c) (spanArr m c)

theorem flushed5_eq (c : Dev nD) (t : Fin cfg0.N) :
    (dats m 0 c).flushed 5 t = ((cfg0.win 5).blk t).view.read (Elt Ideal) (sentArr m c) := by
  show (cfg0.win 5).cut (grid0.coords t) ((dats m 0 c).after 5 t) = _
  rw [after0_5]
  unfold out0_5
  rw [View.canon_unit_zero hz2]
  simp only [View.ld_unit_zero (S := S1x512x768) hz3, View.ld_unit_zero (S := S768x768) hz2, View.ld_unit_zero (S := S768) hz1,
    View.ld_unit_zero (S := S1x16x2) hz3]
  obtain ⟨-, -, -, -, -, -, -, -, -, -, -, -, e0, e1⟩ := idx_facts t
  funext j
  show k0_pay3 (F := Ideal) (tokBlk m c t) (wtBlk m c t) (biasBlk m c t) (spanBlk m c t) j = sentArr m c (((cfg0.win 5).blk t).view.emb j)
  refine (sent_blk m c t j).trans ?_
  have h0 : (j 0).val < 16 := (j 0).isLt
  have ht : t.val < 64 := (psg t).isLt
  have a0 : ((((cfg0.win 5).blk t).view.emb j) 0).val = t.val * 16 + (j 0).val := by
    show win0_5.index t (0 : Fin 2) * 16 + 1 * (j 0).val = t.val * 16 + (j 0).val; omega
  have a1 : (((cfg0.win 5).blk t).view.emb j) 1 = j 1 := Fin.ext (by
    show win0_5.index t (1 : Fin 2) * 768 + 1 * (j 1).val = (j 1).val; omega)
  unfold sentArr sentOut
  rw [a1]
  congr 1
  · exact Fin.ext (by show t.val = ((((cfg0.win 5).blk t).view.emb j) 0).val / 16; omega)
  · exact Fin.ext (by show (j 0).val = ((((cfg0.win 5).blk t).view.emb j) 0).val % 16; omega)

theorem mem_blk5 (t : Fin cfg0.N) (i : S1024x768.Idx) :
    i ∈ ((cfg0.win 5).blk t).view.set ↔ ∀ a : Fin 2, win0_5.index t a * S16x768.size a ≤ (i a).val ∧ (i a).val < win0_5.index t a * S16x768.size a + S16x768.size a := by
  show i ∈ ((View.whole main_v0_1).slice (win0_5.rect t)).set ↔ _
  rw [View.set_slice_whole, Rect.mem_set_unit]
  exact Iff.rfl

theorem cover5 (i : S1024x768.Idx) : ∃ t : Fin cfg0.N, (cfg0.win 5).flush t = true ∧ i ∈ ((cfg0.win 5).blk t).view.set := by
  have h0 : (i 0).val < 1024 := (i 0).isLt
  have h1 : (i 1).val < 768 := (i 1).isLt
  have hq : (i 0).val / 16 < 64 := by omega
  refine ⟨Fin.cast N_0.symm (⟨(i 0).val / 16, hq⟩ : Fin 64), flush0_5 _, ?_⟩
  obtain ⟨-, -, -, -, -, -, -, -, -, -, -, -, e0, e1⟩ := idx_facts (Fin.cast N_0.symm (⟨(i 0).val / 16, hq⟩ : Fin 64))
  have ev : (Fin.cast N_0.symm (⟨(i 0).val / 16, hq⟩ : Fin 64)).val = (i 0).val / 16 := rfl
  rw [mem_blk5]
  intro a
  match a with
  | ⟨0, _⟩ => show win0_5.index _ (0 : Fin 2) * 16 ≤ (i 0).val ∧ (i 0).val < win0_5.index _ (0 : Fin 2) * 16 + 16; omega
  | ⟨1, _⟩ => show win0_5.index _ (1 : Fin 2) * 768 ≤ (i 1).val ∧ (i 1).val < win0_5.index _ (1 : Fin 2) * 768 + 768; omega

/-- The span array after the run. -/
theorem final5 (c : Dev nD) : (dats m 0 c).arrAt 5 cfg0.N = sentArr m c :=
  (dats m 0 c).arrAt_eq_of_cover 5 (sentArr m c) (fun t _ => flushed5_eq m c t) cover5

end Cert.KernelIdeal.ArrValue

end
-- ==== Proof.KernelRun.lean ====
/-
  The program's run, read: its three results as the pooler's formulas of the arguments.

  The region leaves the passage array and the span array at their functions of the arguments; the lines
  after it flatten the passage array, [64, 1, 768] to [64, 768] — entry (n, o) is entry (n, 0, o) —, and
  broadcast the constant zero to the mask.
-/
import proofs.«161412_j34608846471536_1_alg».proof.Proof.KernelArrays

set_option maxRecDepth 16384

noncomputable section

namespace Cert.KernelIdeal.RunValue

open Cert.KernelIdeal Cert.KernelIdeal.Gen Cert.KernelIdeal.ArrValue Cert.Pooler
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The first result: the passage array flattened. -/
theorem tail_pass (c : Dev nD) :
    Pipeline.afterTail₀ cfgs (dats m) 0 (V0 m) [hostOps1] c main_v1
      = passOut (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v1) = _
  after_results
  rw [Pipeline.withArrays_arr spec0 launch0.win.arr_inj c _ _ 4, final4]
  funext i
  obtain ⟨n, o, rfl⟩ : ∃ (n : Fin 64) (o : Fin 768), i = ix2 n o := ⟨i 0, i 1, eq_ix2 i⟩
  show shapeCast S64x768 (passArr m c) shapeCasts_S64x1x768_S64x768 (ix2 n o) = _
  rw [shapeCast_apply (passArr m c) shapeCasts_S64x1x768_S64x768 (ix2 n o) (ix3 n (0 : Fin 1) o) (by
    rw [Shape.rowMajor_val_three, Shape.rowMajor_val_two]
    show (n.val * 1 + 0) * 768 + o.val = n.val * 768 + o.val
    omega)]
  rfl

/-- The third result: zeros. -/
theorem tail_mask (c : Dev nD) :
    Pipeline.afterTail₀ cfgs (dats m) 0 (V0 m) [hostOps1] c main_v2 = maskOut := by
  unfold Pipeline.afterTail₀
  show StableHlo.after hostOps1 _ (Proc.devRef .tc main_v2) = _
  after_results
  funext i
  exact Ideal.ofBits_zero_f32

/-- The second result: the span array. -/
theorem span_result (c : Dev nD) :
    (dats m 0 c).arrAt 5 cfg0.N
      = sentOut (m ((c.tc : Thread nD τ).loc main_arg0)) (m ((c.tc : Thread nD τ).loc main_arg1)) (m ((c.tc : Thread nD τ).loc main_arg2))
          (m ((c.tc : Thread nD τ).loc main_arg4)) := final5 m c

/-- Every weakly fair execution terminates with the three results at the pooler's formulas of the arguments, the
    arguments unchanged. -/
theorem run : θ_run defs (onTc (τ := τ) (main (F := Ideal))) ⟨m, fun _ => 0, ρ⟩ fun r => ∀ c : Dev nD,
      r.2.mem ((c.tc : Thread nD τ).loc main_v1) = passOut (m ((c.tc : Thread nD τ).loc main_arg0)) (m ((c.tc : Thread nD τ).loc main_arg1)) (m ((c.tc : Thread nD τ).loc main_arg2))
      ∧ r.2.mem ((c.tc : Thread nD τ).loc main_v0_1) = sentOut (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v2) = maskOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v1 (Pipeline.mem_restRefs_of main_v1 (by decide) (by decide))).trans (tail_pass m c),
      ((h c).1 5).trans (span_result m c),
      ((h c).2 main_v2 (Pipeline.mem_restRefs_of main_v2 (by decide) (by decide))).trans (tail_mask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.RunValue

end
-- ==== Proof.lean ====
/-
  The pooler kernel against its reference, over the extended reals.

  Both programs compute, for each of 64 passages, pooled = tanh (x · wᵀ + b) over its 512 tokens; the first
  result is the first token's row of pooled; the second is, for each of the passage's 16 spans (start, end),
  the sum of the rows of pooled at the positions start ≤ l < end divided by end − start; the third is a mask
  of zeros.  The kernel forms the span sums as a 0/1 indicator matrix times pooled inside one pass per passage,
  the reference as a batched product over all passages.  Over the extended reals a change of float format is the
  identity and both matrix products are plain sums, so the two sides are the same sums over the same index
  sets and the same quotient: no law of arithmetic beyond reindexing is used, and the precondition is not opened.

  Proof/PoolerSpec.lean states the three results as formulas; Proof/RefIsSpec.lean reads the reference's
  operations one at a time into them; Proof/BodyValue.lean reads the kernel body's stored values at an index;
  Proof/KernelArrays.lean carries the blocks a grid point writes to the two output arrays; Proof/KernelRun.lean
  reads the lines after the region and states the kernel's run.  The frames of the two kernel programs are the
  generated ones; the reference's is its run with the results dropped; there is no rewrite to preserve.
-/
import proofs.«161412_j34608846471536_1_alg».proof.Defs
import proofs.«161412_j34608846471536_1_alg».proof.Proof.Gen.Kernel
import proofs.«161412_j34608846471536_1_alg».proof.Proof.Gen.Kernel.Skeleton
import proofs.«161412_j34608846471536_1_alg».proof.Proof.Gen.Kernel.Launch
import proofs.«161412_j34608846471536_1_alg».proof.Proof.Gen.Kernel.Points
import proofs.«161412_j34608846471536_1_alg».proof.Proof.Gen.Kernel.Frame
import proofs.«161412_j34608846471536_1_alg».proof.Proof.Gen.KernelIdeal
import proofs.«161412_j34608846471536_1_alg».proof.Proof.Gen.KernelIdeal.Skeleton
import proofs.«161412_j34608846471536_1_alg».proof.Proof.Gen.KernelIdeal.Launch
import proofs.«161412_j34608846471536_1_alg».proof.Proof.Gen.KernelIdeal.Points
import proofs.«161412_j34608846471536_1_alg».proof.Proof.Gen.KernelIdeal.Frame
import proofs.«161412_j34608846471536_1_alg».proof.Proof.Gen.ReferenceIdeal
import proofs.«161412_j34608846471536_1_alg».proof.Proof.Gen.Pre_finite_inputs
import proofs.«161412_j34608846471536_1_alg».proof.Proof.Gen.ReferenceIdeal.Run
import proofs.«161412_j34608846471536_1_alg».proof.Proof.Gen.ReferenceIdeal.Read
import proofs.«161412_j34608846471536_1_alg».proof.Proof.RefIsSpec
import proofs.«161412_j34608846471536_1_alg».proof.Proof.KernelRun
import Idealize.ShloMosaic.Adequacy
import Idealize.ShloMosaic.Init

noncomputable section

namespace Cert.Proof

open Idealize.ShloMosaic Idealize.SL.Sem Cert.Pooler

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three results at the pooler's formulas of arguments that agree. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ?_) (Cert.ReferenceIdeal.Value.run (F := Ideal) m' ρ')
  obtain ⟨h1, h2, h3, hargs⟩ := h c
  obtain ⟨a0, a1, a2, a3, a4⟩ := hagree c
  refine ⟨?_, ?_, ?_, hargs⟩
  · rw [h1, Cert.ReferenceIdeal.Read.val_main_v6_eq, Cert.ReferenceIdeal.RefValue.first_eq, a0, a1, a2]
  · rw [h2, Cert.ReferenceIdeal.Read.val_main_v34_eq, Cert.ReferenceIdeal.RefValue.second_eq, a0, a1, a2, a4]
  · rw [h3, Cert.ReferenceIdeal.Read.val_main_v35_eq, Cert.ReferenceIdeal.RefValue.third_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
